-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x100x4x32x32 : Shape := ⟨5, ![64, 100, 4, 32, 32]⟩
abbrev S_ : Shape := ⟨0, ![]⟩

class Facts : Prop where
  bcast_S_S64x100x4x32x32 : S_.BroadcastsInDim S64x100x4x32x32 (![] : Fin 0 → Fin S64x100x4x32x32.rank)
  reducesTo_S64x100x4x32x32_S_d0_1_2_3_4 : S64x100x4x32x32.ReducesTo [0, 1, 2, 3, 4] S_
  h_S_ : 0 < S_.numel

variable [Facts]

def fn {F : FTy → Type} [FloatOps F] (main_arg0 : FVec F S64x100x4x32x32 .f32) (main_arg1 : FVec F S64x100x4x32x32 .f32) : IVec S_ 1 :=
  let main_v0 : FVec F S64x100x4x32x32 .f32 := Host.absf main_arg0
  let main_cst : FVec F S_ .f32 := constant S_ .f32 0x7F800000#32
  let main_v1 : FVec F S64x100x4x32x32 .f32 := broadcastInDim S64x100x4x32x32 ![] bcast_S_S64x100x4x32x32 main_cst
  let main_v2 : IVec S64x100x4x32x32 1 := cmpf .olt main_v0 main_v1
  let main_c : IVec S_ 1 := constantI S_ 1 1#1
  let main_v3 : IVec S_ 1 := (fun x v => Host.reduce IntOp.andi x v reducesTo_S64x100x4x32x32_S_d0_1_2_3_4 h_S_) main_v2 main_c
  let main_v4 : FVec F S64x100x4x32x32 .f32 := Host.absf main_arg1
  let main_cst_0 : FVec F S_ .f32 := constant S_ .f32 0x7F800000#32
  let main_v5 : FVec F S64x100x4x32x32 .f32 := broadcastInDim S64x100x4x32x32 ![] bcast_S_S64x100x4x32x32 main_cst_0
  let main_v6 : IVec S64x100x4x32x32 1 := cmpf .olt main_v4 main_v5
  let main_c_1 : IVec S_ 1 := constantI S_ 1 1#1
  let main_v7 : IVec S_ 1 := (fun x v => Host.reduce IntOp.andi x v reducesTo_S64x100x4x32x32_S_d0_1_2_3_4 h_S_) main_v6 main_c_1
  let main_v8 : IVec S_ 1 := andi main_v3 main_v7
  main_v8
-- ==== Kernel.lean ====
abbrev S64x100x4x32x32 : Shape := ⟨5, ![64, 100, 4, 32, 32]⟩
abbrev S64x100x1x32x32 : Shape := ⟨5, ![64, 100, 1, 32, 32]⟩
abbrev S64x100x32x32 : Shape := ⟨4, ![64, 100, 32, 32]⟩
abbrev S6400x32x32 : Shape := ⟨3, ![6400, 32, 32]⟩
abbrev S1x1 : Shape := ⟨2, ![1, 1]⟩
abbrev S800x32x32 : Shape := ⟨3, ![800, 32, 32]⟩
abbrev S800x32 : Shape := ⟨2, ![800, 32]⟩
abbrev S800 : Shape := ⟨1, ![800]⟩
abbrev S1x800 : Shape := ⟨2, ![1, 800]⟩
abbrev S1 : Shape := ⟨1, ![1]⟩
abbrev S_ : Shape := ⟨0, ![]⟩

abbrev nBuf : Space → Nat
  | .hbm => 12
  | .vmem => 5
  | .smem => 0
  | _ => 0

abbrev bufTy : (tb : Table) → Fin (tcTables nBuf tb) → BufTy
  | .hbm, ⟨0, _⟩ => ⟨S64x100x4x32x32, .f32⟩
  | .hbm, ⟨1, _⟩ => ⟨S64x100x4x32x32, .f32⟩
  | .hbm, ⟨2, _⟩ => ⟨S64x100x1x32x32, .f32⟩
  | .hbm, ⟨3, _⟩ => ⟨S64x100x32x32, .f32⟩
  | .hbm, ⟨4, _⟩ => ⟨S6400x32x32, .f32⟩
  | .hbm, ⟨5, _⟩ => ⟨S64x100x1x32x32, .f32⟩
  | .hbm, ⟨6, _⟩ => ⟨S64x100x32x32, .f32⟩
  | .hbm, ⟨7, _⟩ => ⟨S6400x32x32, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S800x32x32, .f32⟩
  | .local _ .vmem, ⟨1, _⟩ => ⟨S800x32x32, .f32⟩
  | .local _ .vmem, ⟨2, _⟩ => ⟨S800x32x32, .f32⟩
  | .local _ .vmem, ⟨3, _⟩ => ⟨S800x32x32, .f32⟩
  | .local _ .vmem, ⟨4, _⟩ => ⟨S1x1, .f32⟩
  | _, _ => ⟨S64x100x4x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S800x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  slices_S64x100x4x32x32_S64x100x1x32x32_0_0_3_0_0 : S64x100x4x32x32.Slices ![0, 0, 3, 0, 0] S64x100x1x32x32
  shapeCasts_S64x100x1x32x32_S64x100x32x32 : S64x100x1x32x32.ShapeCasts S64x100x32x32
  shapeCasts_S64x100x32x32_S6400x32x32 : S64x100x32x32.ShapeCasts S6400x32x32
  inb_S1x1_S1x1_0_0 : ∀ a, (![0, 0] : Fin 2 → Nat) a + S1x1.size a ≤ S1x1.size a
  h_S1x1 : 0 < S1x1.numel
  inb_S800x32x32_S800x32x32_0_0_0 : ∀ a, (![0, 0, 0] : Fin 3 → Nat) a + S800x32x32.size a ≤ S800x32x32.size a
  h_S800x32x32 : 0 < S800x32x32.numel
  shapeCasts_S800x32x32_S800x32x32 : S800x32x32.ShapeCasts S800x32x32
  reduces_S800x32x32_S800x32 : S800x32x32.Reduces [2] S800x32
  reduces_S800x32_S800 : S800x32.Reduces [1] S800
  shapeCasts_S800_S1x800 : S800.ShapeCasts S1x800
  reduces_S1x800_S1 : S1x800.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x32x32.size a ≤ S6400x32x32.size a
  hwx0_0 : ∀ i : grid0.Coords, EltTy.bits .f32 = 32 ∨ (Rect.block (s := S6400x32x32) S800x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x32x32.size a ≤ S6400x32x32.size a
  hwx0_1 : ∀ i : grid0.Coords, EltTy.bits .f32 = 32 ∨ (Rect.block (s := S6400x32x32) S800x32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v2) S800x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S800x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x100x4x32x32 : Shape := ⟨5, ![64, 100, 4, 32, 32]⟩
abbrev S64x100x1x32x32 : Shape := ⟨5, ![64, 100, 1, 32, 32]⟩
abbrev S64x100x32x32 : Shape := ⟨4, ![64, 100, 32, 32]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S64x100x4x32x32, .f32⟩
  | .hbm, ⟨1, _⟩ => ⟨S64x100x4x32x32, .f32⟩
  | .hbm, ⟨2, _⟩ => ⟨S64x100x1x32x32, .f32⟩
  | .hbm, ⟨3, _⟩ => ⟨S64x100x32x32, .f32⟩
  | .hbm, ⟨4, _⟩ => ⟨S64x100x1x32x32, .f32⟩
  | .hbm, ⟨5, _⟩ => ⟨S64x100x32x32, .f32⟩
  | .hbm, ⟨6, _⟩ => ⟨S64x100x32x32, .f32⟩
  | .hbm, ⟨7, _⟩ => ⟨S64x100x32x32, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S64x100x4x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  slices_S64x100x4x32x32_S64x100x1x32x32_0_0_3_0_0 : S64x100x4x32x32.Slices ![0, 0, 3, 0, 0] S64x100x1x32x32
  shapeCasts_S64x100x1x32x32_S64x100x32x32 : S64x100x1x32x32.ShapeCasts S64x100x32x32
  reducesTo_S64x100x32x32_S_d0_1_2_3 : S64x100x32x32.ReducesTo [0, 1, 2, 3] S_
  h_S_ : 0 < S_.numel

variable [Facts₀]

class Facts : Prop extends Facts₀ where

variable [Facts]
-- ==== Proof.Pieces.lean ====
/-
  What each control case of the kernel body leaves in the output's [1, 1] buffer, as a value.

  At the first grid point the body first stores the zero block, then loads it back and stores "loaded + this
  point's sum": its buffer ends at the accumulating payload of the two input blocks over the zero block
  (`out_first`). At every later point it loads what the point before left and stores "loaded + this point's sum"
  (`out_later`). Both hold at any float instance: they only say which payload the last covering store wrote and
  what its loads read — whole buffers, read through the zero offsets.
-/
import proofs.«123788_j33758442946606_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

/-- The accesses' offsets are all zero: every load and store of the body is of a whole buffer. -/
theorem off2 : (![0, 0] : Fin 2 → Nat) = fun _ => 0 := funext fun a => by fin_cases a <;> rfl
theorem off3 : (![0, 0, 0] : Fin 3 → Nat) = fun _ => 0 := funext fun a => by fin_cases a <;> rfl

/-- A later point (the reset not taken): the buffer held `xo`; it ends at the accumulating payload of the input
    blocks `x0`, `x1` over `xo`. -/
theorem out_later (c : Dev nD) (i : grid0.Coords) (a1 : Memref sig .tc .vmem S800x32x32 .f32) (h1 : a1.IsWhole)
    (a2 : Memref sig .tc .vmem S800x32x32 .f32) (h2 : a2.IsWhole) (a3 : Memref sig .tc .vmem S1x1 .f32) (h3 : a3.IsWhole)
    (hc : ¬cond0_0 i) (x0 x1 : Vec F S800x32x32 .f32) (xo : Vec F S1x1 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero off2]
  simp only [View.readAt_eq_ld, h1.read_unread, h2.read_unread, h3.read_unread,
    View.ld_unit_zero (S := S800x32x32) off3, View.ld_unit_zero (S := S1x1) off2]

/-- The first point (the reset taken): the zero block is stored, read back, and added to; the buffer ends at the
    accumulating payload of the input blocks over the reset payload. -/
theorem out_first (c : Dev nD) (i : grid0.Coords) (a1 : Memref sig .tc .vmem S800x32x32 .f32) (h1 : a1.IsWhole)
    (a2 : Memref sig .tc .vmem S800x32x32 .f32) (h2 : a2.IsWhole) (a3 : Memref sig .tc .vmem S1x1 .f32) (h3 : a3.IsWhole)
    (hc : cond0_0 i) (x0 x1 : Vec F S800x32x32 .f32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) off2, View.readCov_unit_zero (S := S1x1) _ off2]
  simp only [View.readAt_eq_ld, h1.read_unread, h2.read_unread, View.ld_unit_zero (S := S800x32x32) off3]

end Cert.KernelIdeal.Pieces

end
-- ==== Proof.LibSums.lean ====
/-
  General facts about sums of extended reals over the index sets of arrays, for any sizes.

  * `absDiff x y` is `|x - y|` as a float program computes it at the ideal values — the larger of the difference and
    its negation — and it is symmetric at EVERY pair of extended reals, the infinities included (`absDiff_comm`): no
    finiteness hypothesis is needed to swap the operands of an absolute difference.
  * A sum over a rank-1 or rank-3 index set is the iterated sum over its coordinates (`sum_idx1`, `sum_idx3`; the
    library has the rank-2 form).
  * A reshape reads its operand through a bijection of the index sets, so a sum over every entry of a reshaped array
    is the sum over the array (`sum_shapeCast`; `sum_shapeCast₂` for a function of two arrays reshaped alike). With
    it a total sum never needs the reshape read at an index.
-/
import Idealize.ShloMosaic.PureOps.Ideal.Laws
import Idealize.ShloMosaic.Lib.ValueIdx

noncomputable section

open scoped BigOperators

namespace Cert.LibSums

open Idealize.ShloMosaic Idealize.ShloMosaic.ValueIdx

/-! ## The absolute difference -/

/-- `|x - y|` as both a kernel's `absf (subf x y)` and the host's `abs (subtract x y)` compute it at the ideal
    values: the larger of the difference and its negation. -/
def absDiff (x y : EReal) : EReal := max (x - y) (-(x - y))

/-- `|x - y| = |y - x|` at every pair of extended reals. On the reals `-(x - y) = y - x`; when an argument is
    infinite both sides are `⊤` (one of the difference and its negation is `⊤`). -/
theorem absDiff_comm (x y : EReal) : absDiff x y = absDiff y x := by
  unfold absDiff
  induction x using EReal.rec with
  | bot => induction y using EReal.rec <;> simp
  | top => induction y using EReal.rec <;> simp
  | coe a =>
    induction y using EReal.rec with
    | bot => simp
    | top => simp
    | coe b =>
      rw [← EReal.coe_sub, ← EReal.coe_sub, ← EReal.coe_neg, ← EReal.coe_neg, neg_sub, neg_sub, max_comm]

/-! ## Sums over index sets -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## A sum over a reshaped array -/

/-- A reshape reads its operand through a bijection of the index sets, so the sum of a reshaped array's entries is the
    sum of the array's. -/
theorem sum_shapeCast {M : Type} [AddCommMonoid M] {s t : Shape} (h : s.ShapeCasts t) (P : s.Idx → M) :
    ∑ j : t.Idx, shapeCast t P h j = ∑ i : s.Idx, P i :=
  Equiv.sum_comp (Shape.reshapeEquiv h) P

/-- The same for any function of the entries of two arrays reshaped alike. -/
theorem sum_shapeCast₂ {s t : Shape} (h : s.ShapeCasts t) (f : EReal → EReal → EReal) (P Q : s.Idx → EReal) :
    ∑ j : t.Idx, f (shapeCast t P h j) (shapeCast t Q h j) = ∑ i : s.Idx, f (P i) (Q i) :=
  Equiv.sum_comp (Shape.reshapeEquiv h) fun i => f (P i) (Q i)

end Cert.LibSums

end
-- ==== Proof.SumLaws.lean ====
/-
  The grouping of the kernel's sum, stated with no program in sight.

  Both programs compute the mean of |x - y| over the 64·100·32·32 entries of one channel. Addition of extended reals
  is commutative and associative, so a sum may be regrouped freely: the sum over a [6400, 32, 32] array is the sum
  over its eight row tiles of 800 rows each (`sum_tiles`). The general facts this rests on — the absolute
  difference and its symmetry, sums over index sets by coordinates, sums over a reshaped array — are in LibSums.
-/
import proofs.«123788_j33758442946606_1_alg».proof.Proof.LibSums

noncomputable section

open scoped BigOperators

namespace Cert.MeanAbsDiff

open Idealize.ShloMosaic Idealize.ShloMosaic.ValueIdx

export Cert.LibSums (absDiff absDiff_comm sum_idx1 sum_idx3 sum_shapeCast sum_shapeCast₂)

/-! ## Rows by tile -/

/-- Row `r` of tile `t`: the tiles are consecutive stretches of 800 rows. -/
def rowOf (t : Fin 8) (r : Fin 800) : Fin 6400 :=
  ⟨t.val * 800 + r.val, by have := t.isLt; have := r.isLt; omega⟩

theorem rowOf_val (t : Fin 8) (r : Fin 800) : (rowOf t r).val = t.val * 800 + r.val := rfl

/-- Every row lies in exactly one tile: quotient and remainder by 800. -/
def rowEquiv : Fin 8 × Fin 800 ≃ Fin 6400 where
  toFun p := rowOf p.1 p.2
  invFun n := (⟨n.val / 800, by have := n.isLt; omega⟩, ⟨n.val % 800, Nat.mod_lt _ (by decide)⟩)
  left_inv p := by
    obtain ⟨t, r⟩ := p
    have ht := t.isLt; have hr := r.isLt
    refine Prod.ext (Fin.ext ?_) (Fin.ext ?_)
    · show (t.val * 800 + r.val) / 800 = t.val
      omega
    · show (t.val * 800 + r.val) % 800 = r.val
      omega
  right_inv n := by
    apply Fin.ext
    show n.val / 800 * 800 + n.val % 800 = n.val
    omega

/-- A sum over the 6400 rows is the sum over the tiles of the sums over each tile's rows. -/
theorem sum_rows {M : Type*} [AddCommMonoid M] (g : Fin 6400 → M) :
    ∑ n, g n = ∑ t : Fin 8, ∑ r : Fin 800, g (rowOf t r) := by
  rw [← Equiv.sum_comp rowEquiv g, Fintype.sum_prod_type]
  rfl

/-! ## The tile sums -/

/-- The rows-by-32-by-32 array both sides sum over, and one tile of it. -/
abbrev SRows : Shape := ⟨3, ![6400, 32, 32]⟩
abbrev STile : Shape := ⟨3, ![800, 32, 32]⟩

/-- What one grid point adds: the sum of `|a - b|` over the 800·32·32 entries of tile `t`. -/
def tileSum (a b : SRows.Idx → EReal) (t : Fin 8) : EReal :=
  ∑ r : Fin 800, ∑ h : Fin 32, ∑ w : Fin 32, absDiff (a (ix3 (rowOf t r) h w)) (b (ix3 (rowOf t r) h w))

/-- The eight tile sums add up to the sum over the whole array. -/
theorem sum_tiles (a b : SRows.Idx → EReal) :
    ∑ t : Fin 8, tileSum a b t = ∑ j : SRows.Idx, absDiff (a j) (b j) := by
  rw [sum_idx3 (fun j : SRows.Idx => absDiff (a j) (b j)),
    sum_rows (fun n => ∑ h : Fin 32, ∑ w : Fin 32, absDiff (a (ix3 n h w)) (b (ix3 n h w)))]
  rfl

end Cert.MeanAbsDiff

end
-- ==== Proof.TileValue.lean ====
/-
  What one grid point adds to the running total, read at the ideal values.

  The kernel body's one accumulating store writes `acc + s`, where `acc` is the [1, 1] block it loaded from the
  output's buffer and `s` is the sum of `|x - y|` over the point's two [800, 32, 32] input blocks, taken as three
  nested lane sums (over the last axis, then the middle one, then — after a reshape of the 800 row sums to [1, 800]
  — over all the rows). At the ideal values each lane sum is the plain sum over the reduced coordinate and the
  reshape only renames the indices, so `s` is the triple sum over (row, i, j) of `|x - y|` (`pay2_apply`).
  The reset store's value is the zero block (`pay1_apply`).
-/
import proofs.«123788_j33758442946606_1_alg».proof.Proof.Gen.KernelIdeal.Skeleton
import proofs.«123788_j33758442946606_1_alg».proof.Proof.SumLaws
import Idealize.ShloMosaic.Lib.Pipeline.Value

noncomputable section

open scoped BigOperators

namespace Cert.KernelIdeal.TileValue

open Idealize.ShloMosaic Idealize.ShloMosaic.ValueIdx Cert.KernelIdeal Cert.KernelIdeal.Gen Cert.MeanAbsDiff

/-- Inserting the middle coordinate `h` and then the last coordinate `w` into the row index `r` gives the
    block index (r, h, w). -/
theorem lift_lift (r : Fin 800) (h w : Fin 32) :
    reduces_S800x32x32_S800x32.lift (reduces_S800x32_S800.lift (ix1 r) h) w = ix3 r h w := by
  funext c
  match c with
  | ⟨0, _⟩ => rfl
  | ⟨1, _⟩ => rfl
  | ⟨2, _⟩ => rfl

/-- The reset store's payload is the zero block. -/
theorem pay1_apply (y : S1x1.Idx) : (k0_pay1 (F := Ideal)) y = 0 := by
  unfold k0_pay1
  exact Ideal.ofBits_zero_f32

/-- The accumulating store's payload at its one index: the loaded total plus the block pair's sum of absolute
    differences. -/
theorem pay2_apply (v3 v5 : Vec Ideal S800x32x32 .f32) (v15 : Vec Ideal S1x1 .f32) (y : S1x1.Idx) :
    k0_pay2 (F := Ideal) v3 v5 v15 y
      = v15 y + ∑ r : Fin 800, ∑ h : Fin 32, ∑ w : Fin 32, absDiff (v3 (ix3 r h w)) (v5 (ix3 r h w)) := by
  unfold k0_pay2
  simp only [shapeCast_self]
  refine congrArg (v15 y + ·) ?_
  -- the rows' sums, reshaped to [1, 800], summed over every index
  refine (Ideal.multiReduction_add_total (φ := .f32) _ 0x00000000#32 reduces_S1x800_S1 (fun b => by fin_cases b; rfl)
    (.inl rfl) rfl _).trans ?_
  refine (sum_shapeCast shapeCasts_S800_S1x800 _).trans ?_
  refine (sum_idx1 _).trans ?_
  refine Finset.sum_congr rfl fun r _ => ?_
  -- row r's sum: over the middle axis, then the last
  refine (Ideal.multiReduction_add_single (φ := .f32) _ 0x00000000#32 reduces_S800x32_S800 (.inl rfl) rfl _).trans ?_
  refine Finset.sum_congr rfl fun h _ => ?_
  refine (Ideal.multiReduction_add_single (φ := .f32) _ 0x00000000#32 reduces_S800x32x32_S800x32 (.inl rfl) rfl _).trans ?_
  refine Finset.sum_congr rfl fun w _ => ?_
  exact congrArg (fun i => absDiff (v3 i) (v5 i)) (lift_lift r h w)

end Cert.KernelIdeal.TileValue

end
-- ==== Proof.MeanSpec.lean ====
/-
  The common value of the two programs, as one function of the two argument arrays.

  Of each [64, 100, 4, 32, 32] argument only channel 3 of the third axis is read: the slice [·, ·, 3, ·, ·] with its
  unit axis dropped, a [64, 100, 32, 32] array (`channel3`). The result is the scalar
  `(∑ |x - y| over the 64·100·32·32 entries of that channel) / 6553600`, the divisor being the float word both
  programs carry (never evaluated: it is the same word on both sides).
-/
import proofs.«123788_j33758442946606_1_alg».proof.Proof.SumLaws

noncomputable section

open scoped BigOperators

namespace Cert.MeanAbsDiff

open Idealize.ShloMosaic

abbrev SArg : Shape := ⟨5, ![64, 100, 4, 32, 32]⟩
abbrev SSlice : Shape := ⟨5, ![64, 100, 1, 32, 32]⟩
abbrev SChan : Shape := ⟨4, ![64, 100, 32, 32]⟩
abbrev SScalar : Shape := ⟨0, ![]⟩

/-- Channel 3 of an argument array: the slice at offset 3 of the third axis, reshaped to drop that unit axis. -/
def channel3 (x : SArg.Idx → EReal) : SChan.Idx → EReal :=
  shapeCast SChan (extractStridedSlice SSlice ![0, 0, 3, 0, 0] x (by decide)) (by decide)

/-- The sum of the absolute differences of the two arguments' channel 3. -/
def sumAbsDiff (x y : SArg.Idx → EReal) : EReal := ∑ j : SChan.Idx, absDiff (channel3 x j) (channel3 y j)

theorem sumAbsDiff_comm (x y : SArg.Idx → EReal) : sumAbsDiff x y = sumAbsDiff y x :=
  Finset.sum_congr rfl fun j _ => absDiff_comm _ _

/-- The mean absolute difference, as the scalar array both programs end with. -/
def meanAbsDiff (x y : SArg.Idx → EReal) : SScalar.Idx → EReal :=
  fun _ => Ideal.div (sumAbsDiff x y) (Ideal.ofBits .f32 0x4AC80000#32)

end Cert.MeanAbsDiff

end
-- ==== Proof.KernelRun.lean ====
/-
  The idealized kernel's run, read as a value: its result is the mean absolute difference of the arguments' channel 3.

  The host lines before the kernel region slice channel 3 out of each argument and reshape it to [6400, 32, 32]
  (`rows_arg0`, `rows_arg1`). The region's grid has eight points; point `t` reads rows 800·t … 800·t + 799 of both
  arrays (`blockA`, `blockB`: an element of the block sits at block index × block size + its own coordinate) and adds
  their sum of absolute differences to the one-entry output block, which point 0 first resets to zero. So after point
  `n` the block holds the sum of the first `n + 1` tile sums (`running`, by induction on the point), after the last
  point the sum over the whole array (`last_total`), and a sum over a reshaped array is the sum over the array, so this
  is the sum over channel 3 itself (`total_eq`). The block is written back once, at the last point, and is the whole
  [1, 1] result array (`final_block`); the host lines after the region reshape it to a scalar and divide by the
  count (`tail_value`). `run` assembles these over the generated frame run.
-/
import proofs.«123788_j33758442946606_1_alg».proof.Proof.Pieces
import proofs.«123788_j33758442946606_1_alg».proof.Proof.TileValue
import proofs.«123788_j33758442946606_1_alg».proof.Proof.MeanSpec
import Idealize.ShloMosaic.Lib.StableHlo.Run

set_option maxRecDepth 16384

noncomputable section

open scoped BigOperators

namespace Cert.KernelIdeal.Total

open Idealize.ShloMosaic Idealize.ShloMosaic.TcCoe Idealize.SL.Sem Idealize.ShloMosaic.ValueIdx
open Idealize.ShloMosaic.Pipeline (Dat)
open Cert.KernelIdeal Cert.KernelIdeal.Gen Cert.MeanAbsDiff

variable (m : (ℓ : Loc nD τ sig) → Buf (Elt Ideal) ℓ) (ρ : Dev nD → PrngReg)

/-! ## The two arrays the region reads, and their blocks -/

/-- The [6400, 32, 32] arrays the region finds: channel 3 of each argument, rows flattened. -/
abbrev rowsA (c : Dev nD) : SRows.Idx → EReal := V m c main_v2
abbrev rowsB (c : Dev nD) : SRows.Idx → EReal := V m c main_v5
/-- Their blocks at grid point `t`. -/
abbrev blkA (c : Dev nD) (t : Fin cfg0.N) : Vec Ideal S800x32x32 .f32 := iblk m c 0 t
abbrev blkB (c : Dev nD) (t : Fin cfg0.N) : Vec Ideal S800x32x32 .f32 := iblk m c 1 t

/-- A grid point as a tile number. -/
abbrev pt (t : Fin cfg0.N) : Fin 8 := ⟨t.val, lt_of_lt_of_eq t.isLt N_0⟩

/-- Both input windows' block index at point `t` is (t, 0, 0). -/
theorem idxA : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem idxB : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)

/-- Entry (r, h, w) of point `t`'s block of the first array is entry (800·t + r, h, w) of the array. -/
theorem blockA (c : Dev nD) (t : Fin cfg0.N) (r : Fin 800) (h w : Fin 32) :
    blkA m c t (ix3 r h w) = rowsA m c (ix3 (rowOf (pt t) r) h w) := by
  show V m c main_v2 (((cfg0.win 0).blk t).view.emb (ix3 r h w)) = V m c main_v2 (ix3 (rowOf (pt t) r) h w)
  congr 1
  funext a
  apply Fin.ext
  obtain ⟨e0, e1, e2⟩ := idxA t
  match a with
  | ⟨0, _⟩ => show win0_0.index t 0 * 800 + 1 * r.val = t.val * 800 + r.val; rw [e0]; omega
  | ⟨1, _⟩ => show win0_0.index t 1 * 32 + 1 * h.val = h.val; rw [e1]; omega
  | ⟨2, _⟩ => show win0_0.index t 2 * 32 + 1 * w.val = w.val; rw [e2]; omega

/-- The same for the second array. -/
theorem blockB (c : Dev nD) (t : Fin cfg0.N) (r : Fin 800) (h w : Fin 32) :
    blkB m c t (ix3 r h w) = rowsB m c (ix3 (rowOf (pt t) r) h w) := by
  show V m c main_v5 (((cfg0.win 1).blk t).view.emb (ix3 r h w)) = V m c main_v5 (ix3 (rowOf (pt t) r) h w)
  congr 1
  funext a
  apply Fin.ext
  obtain ⟨e0, e1, e2⟩ := idxB t
  match a with
  | ⟨0, _⟩ => show win0_1.index t 0 * 800 + 1 * r.val = t.val * 800 + r.val; rw [e0]; omega
  | ⟨1, _⟩ => show win0_1.index t 1 * 32 + 1 * h.val = h.val; rw [e1]; omega
  | ⟨2, _⟩ => show win0_1.index t 2 * 32 + 1 * w.val = w.val; rw [e2]; omega

/-! ## The running total -/

/-- Tile `n`'s sum, for any natural `n` (zero past the grid, where it is never used). -/
def tileAt (c : Dev nD) (n : ℕ) : EReal := if h : n < 8 then tileSum (rowsA m c) (rowsB m c) ⟨n, h⟩ else 0

/-- What point `t` adds is tile `t`'s sum. -/
theorem point_sum (c : Dev nD) (t : Fin cfg0.N) :
    (∑ r : Fin 800, ∑ h : Fin 32, ∑ w : Fin 32, absDiff (blkA m c t (ix3 r h w)) (blkB m c t (ix3 r h w)))
      = tileAt m c t.val := by
  unfold tileAt
  rw [dif_pos (lt_of_lt_of_eq t.isLt N_0)]
  unfold tileSum
  refine Finset.sum_congr rfl fun r _ => Finset.sum_congr rfl fun h _ => Finset.sum_congr rfl fun w _ => ?_
  exact congrArg₂ absDiff (blockA m c t r h w) (blockB m c t r h w)

/-- After point `n` the output block holds the sum of tiles 0 … n. -/
theorem running (c : Dev nD) : ∀ (n : ℕ) (hn : n < cfg0.N) (y : S1x1.Idx),
    outsAt0 m c n hn y = ∑ s ∈ Finset.range (n + 1), tileAt m c s
  | 0, hn, y => by
    rw [outsAt0_A m c ⟨0, hn⟩ rfl,
      Pieces.out_first c (grid0.coords ⟨0, hn⟩) (ms0_0 ⟨0, hn⟩) (hs0_0 ⟨0, hn⟩) (ms0_1 ⟨0, hn⟩) (hs0_1 ⟨0, hn⟩)
        (ms0_2 ⟨0, hn⟩) (hs0_2 ⟨0, hn⟩) _ (blkA m c ⟨0, hn⟩) (blkB m c ⟨0, hn⟩),
      TileValue.pay2_apply, TileValue.pay1_apply, zero_add, Finset.sum_range_one]
    exact point_sum m c ⟨0, hn⟩
  | n + 1, hn, y => by
    have hN : cfg0.N = 8 := N_0
    have hB : ¬(⟨n + 1, hn⟩ : Fin cfg0.N).val % 8 = 0 := by dsimp only; omega
    rw [outsAt0_B m c ⟨n + 1, hn⟩ hB,
      Pieces.out_later c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) _ (blkA m c ⟨n + 1, hn⟩) (blkB m c ⟨n + 1, hn⟩) _,
      TileValue.pay2_apply, Finset.sum_range_succ _ (n + 1)]
    exact congrArg₂ (· + ·) (running c n (Nat.lt_of_succ_lt hn) y) (point_sum m c ⟨n + 1, hn⟩)

/-- The last point. -/
theorem last_lt : 7 < cfg0.N := by rw [show cfg0.N = 8 from N_0]; decide

/-- After the last point the block holds the sum over the whole [6400, 32, 32] arrays. -/
theorem last_total (c : Dev nD) (y : S1x1.Idx) :
    outsAt0 m c 7 last_lt y = ∑ j : SRows.Idx, absDiff (rowsA m c j) (rowsB m c j) := by
  rw [running m c 7 last_lt y, ← sum_tiles, ← Fin.sum_univ_eq_sum_range (fun s => tileAt m c s) 8]
  exact Finset.sum_congr rfl fun t _ => dif_pos t.isLt

/-! ## The host lines before the region -/

/-- The first array is channel 3 of `arg0`, reshaped. -/
theorem rows_arg0 (c : Dev nD) :
    rowsA m c = shapeCast SRows (channel3 (m ((c : Thread nD τ).loc main_arg0))) (by decide) := by
  show StableHlo.after hostOps0 (fun b => m (c, b)) (Proc.devRef .tc main_v2) = _
  after_results
  rfl

/-- The second array is channel 3 of `arg1`, reshaped. -/
theorem rows_arg1 (c : Dev nD) :
    rowsB m c = shapeCast SRows (channel3 (m ((c : Thread nD τ).loc main_arg1))) (by decide) := by
  show StableHlo.after hostOps0 (fun b => m (c, b)) (Proc.devRef .tc main_v5) = _
  after_results
  rfl

/-- So the sum over the rows is the sum over channel 3 of the arguments. -/
theorem total_eq (c : Dev nD) (y : S1x1.Idx) :
    outsAt0 m c 7 last_lt y
      = sumAbsDiff (m ((c : Thread nD τ).loc main_arg0)) (m ((c : Thread nD τ).loc main_arg1)) := by
  rw [last_total, rows_arg0, rows_arg1]
  exact sum_shapeCast₂ _ absDiff _ _

/-! ## The result array and the host lines after the region -/

/-- The block the last point leaves, as contents of the [1, 1] result array. -/
abbrev lastBlock (c : Dev nD) : Buf (Elt Ideal) ((c : Thread nD τ).loc main_v6) := outsAt0 m c 7 last_lt

/-- The output window's block index is (0, 0) at every point: its one block is the whole array. -/
theorem out_origin (t : Fin cfg0.N) : (fun a => win0_2.index t a * main_v6.ty.shape.size a) = fun _ => 0 :=
  funext fun a => by fin_cases a <;> rfl

/-- The one write-back, at the last point, writes that block. -/
theorem flushed_last (c : Dev nD) (t : Fin cfg0.N) (hf : (cfg0.win 2).flush t = true) :
    (dats m 0 c).flushed 2 t = ((cfg0.win 2).blk t).view.read (Elt Ideal) (lastBlock m c) := by
  have hN : cfg0.N = 8 := N_0
  have h7 : t.val = 7 := by have := (flush0_2 t).mp hf; have := t.isLt; omega
  obtain rfl : t = ⟨7, last_lt⟩ := Fin.ext h7
  show (cfg0.win 2).cut (grid0.coords ⟨7, last_lt⟩) ((dats m 0 c).after 2 ⟨7, last_lt⟩) = _
  rw [after0_2]
  exact (Memref.read_access_unit_zero (Elt Ideal) main_v6 (out_origin ⟨7, last_lt⟩)
    (fun a => by rw [congrFun (out_origin ⟨7, last_lt⟩) a]; simp) (lastBlock m c)).symm

/-- The result array ends holding it: the last point's block covers the array's one entry. -/
theorem final_block (c : Dev nD) : (dats m 0 c).arrAt 2 cfg0.N = lastBlock m c :=
  (dats m 0 c).arrAt_eq_of_cover 2 (lastBlock m c) (flushed_last m c) fun i =>
    ⟨⟨7, last_lt⟩, (flush0_2 ⟨7, last_lt⟩).mpr rfl, by
      have e : i = ((cfg0.win 2).blk ⟨7, last_lt⟩).view.emb (i : S1x1.Idx) :=
        funext fun a => Fin.ext (by
          match a with
          | ⟨0, _⟩ => show (i 0).val = win0_2.index ⟨7, last_lt⟩ 0 * 1 + 1 * (i 0).val; have h0 : win0_2.index ⟨7, last_lt⟩ 0 = 0 := rfl; omega
          | ⟨1, _⟩ => show (i 1).val = win0_2.index ⟨7, last_lt⟩ 1 * 1 + 1 * (i 1).val; have h1 : win0_2.index ⟨7, last_lt⟩ 1 = 0 := rfl; omega)
      rw [e]
      exact ((cfg0.win 2).blk ⟨7, last_lt⟩).view.emb_mem_set _⟩

/-- The lines after the region: the result array reshaped to a scalar, divided by the count. -/
theorem tail_value (c : Dev nD) :
    (Pipeline.afterTail₀ cfgs (dats m) 0 (V0 m) [hostOps1] c main_v8 : S_.Idx → EReal)
      = meanAbsDiff (m ((c : Thread nD τ).loc main_arg0)) (m ((c : Thread nD τ).loc main_arg1)) := by
  unfold Pipeline.afterTail₀
  show StableHlo.after hostOps1 _ (Proc.devRef .tc main_v8) = _
  after_results
  have e := Pipeline.withArrays_arr (cfgs 0).spec launch0.win.arr_inj c (V0 m c) (fun w => (dats m 0 c).arrAt w (cfgs 0).N) 2
  funext i
  show Ideal.div (Pipeline.withArrays (cfgs 0).spec c (V0 m c) (fun w => (dats m 0 c).arrAt w (cfgs 0).N)
      (Proc.devRef .tc main_v6) (Shape.reshapeEquiv shapeCasts_S1x1_S_ i)) (Ideal.ofBits .f32 0x4AC80000#32) = _
  rw [show Pipeline.withArrays (cfgs 0).spec c (V0 m c) (fun w => (dats m 0 c).arrAt w (cfgs 0).N)
      (Proc.devRef .tc main_v6) = (dats m 0 c).arrAt 2 cfg0.N from e, final_block]
  show Ideal.div (outsAt0 m c 7 last_lt _) _ = _
  rw [total_eq]
  rfl

/-! ## The run -/

/-- Every weakly fair execution of the idealized kernel terminates with its result at the mean absolute difference
    of the arguments' channel 3, the arguments unchanged. -/
theorem run : θ_run defs (onTc (τ := τ) (main (F := Ideal))) ⟨m, fun _ => 0, ρ⟩ fun r => ∀ c : Dev nD,
      r.2.mem ((c : Thread nD τ).loc main_v8)
        = meanAbsDiff (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v8 (Pipeline.mem_restRefs_of main_v8 (by decide) (by decide))).trans (tail_value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Total

end
-- ==== Proof.RefValue.lean ====
/-
  The reference's result, read as the same function of the arguments as the kernel's.

  The reference slices channel 3 out of both arguments, subtracts the first argument's from the second's, takes
  absolute values, sums over all four axes starting from the zero word, and divides by the count. Read stage by
  stage at the ideal values this is `(0 + ∑ |y - x|) / count`; the zero word is the real 0 and `|y - x| = |x - y|`
  at every pair of extended reals, so it is the mean absolute difference as the kernel computes it.
-/
import proofs.«123788_j33758442946606_1_alg».proof.Proof.Gen.ReferenceIdeal.Read
import proofs.«123788_j33758442946606_1_alg».proof.Proof.MeanSpec

noncomputable section

open scoped BigOperators

namespace Cert.ReferenceIdeal.RefValue

open Idealize.ShloMosaic Cert.ReferenceIdeal Cert.ReferenceIdeal.Gen Cert.ReferenceIdeal.Read Cert.MeanAbsDiff

/-- The reference's last stage is the mean absolute difference of its two arguments. -/
theorem result_eq (x0 x1 : SArg.Idx → EReal) : val_main_v7 (F := Ideal) x0 x1 = meanAbsDiff x0 x1 := by
  funext i
  rw [val_main_v7_apply, val_main_v6_apply, val_main_cst_apply, val_main_cst_0_apply]
  show Ideal.div (Ideal.ofBits .f32 0x00000000#32 + ∑ j : SChan.Idx, absDiff (channel3 x1 j) (channel3 x0 j))
      (Ideal.ofBits .f32 0x4AC80000#32) = _
  rw [Ideal.ofBits_zero_f32, zero_add]
  exact congrArg (fun s => Ideal.div s (Ideal.ofBits .f32 0x4AC80000#32)) (sumAbsDiff_comm x1 x0)

end Cert.ReferenceIdeal.RefValue

end
-- ==== Proof.lean ====
/-
  The kernel computes the mean of |output - convdata| over channel 3 of two [64, 100, 4, 32, 32] arrays by streaming
  the channel, flattened to [6400, 32, 32], through eight tiles of 800 rows: each grid point adds its tile's sum of
  absolute differences to a one-entry accumulator that the first point resets, and the host divides the total by the
  count 6553600. The reference takes the mean of |convdata - output| over the same channel in one reduction.

  At the ideal values both results are one function of the arguments (`Cert.MeanAbsDiff.meanAbsDiff`): a sum of
  extended reals does not depend on how it is grouped or ordered, a reshape only renames indices, the absolute value of
  a difference is symmetric in its two arguments at every pair of extended reals, and both programs divide by the same
  float word. No finiteness of the inputs is needed for the value; the precondition is carried but never opened.

  The frames of the two kernel programs are the generated ones; the reference's frame is its generated run with the
  result dropped; the idealization rewrote nothing, so `preserves` is `True`.
-/
import proofs.«123788_j33758442946606_1_alg».proof.Defs
import proofs.«123788_j33758442946606_1_alg».proof.Proof.Gen.Kernel
import proofs.«123788_j33758442946606_1_alg».proof.Proof.Gen.Kernel.Skeleton
import proofs.«123788_j33758442946606_1_alg».proof.Proof.Gen.Kernel.Launch
import proofs.«123788_j33758442946606_1_alg».proof.Proof.Gen.Kernel.Points
import proofs.«123788_j33758442946606_1_alg».proof.Proof.Gen.Kernel.Frame
import proofs.«123788_j33758442946606_1_alg».proof.Proof.Gen.KernelIdeal
import proofs.«123788_j33758442946606_1_alg».proof.Proof.Gen.KernelIdeal.Skeleton
import proofs.«123788_j33758442946606_1_alg».proof.Proof.Gen.KernelIdeal.Launch
import proofs.«123788_j33758442946606_1_alg».proof.Proof.Gen.KernelIdeal.Points
import proofs.«123788_j33758442946606_1_alg».proof.Proof.Gen.KernelIdeal.Frame
import proofs.«123788_j33758442946606_1_alg».proof.Proof.Gen.ReferenceIdeal
import proofs.«123788_j33758442946606_1_alg».proof.Proof.Gen.Pre_finite_inputs
import proofs.«123788_j33758442946606_1_alg».proof.Proof.Gen.ReferenceIdeal.Run
import proofs.«123788_j33758442946606_1_alg».proof.Proof.Gen.ReferenceIdeal.Read
import proofs.«123788_j33758442946606_1_alg».proof.Proof.KernelRun
import proofs.«123788_j33758442946606_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the mean absolute difference of the arguments' channel 3. -/
theorem algebraic : Cert.algebraic_KernelIdeal_ReferenceIdeal := by
  intro m ρ m' ρ' _ hagree
  refine ⟨fun c => Cert.MeanAbsDiff.meanAbsDiff
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
